-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : FVec F S4096x1 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S8192x4096 : Shape := ⟨2, ![8192, 4096]⟩
abbrev S1x4096 : Shape := ⟨2, ![1, 4096]⟩
abbrev S512x4096 : Shape := ⟨2, ![512, 4096]⟩
abbrev S1024x4096 : Shape := ⟨2, ![1024, 4096]⟩
abbrev S1x1024 : Shape := ⟨2, ![1, 1024]⟩
abbrev S512x1024 : Shape := ⟨2, ![512, 1024]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096, .f32⟩
  | .hbm, ⟨4, _⟩ => ⟨S8192x4096, .f32⟩
  | .hbm, ⟨5, _⟩ => ⟨S8192x4096, .bf16⟩
  | .hbm, ⟨6, _⟩ => ⟨S4096x4096, .bf16⟩
  | .hbm, ⟨7, _⟩ => ⟨S1x4096, .f32⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  bitsLt_bf16_f32 : FTy.bits .bf16 < FTy.bits .f32
  shapeCasts_S4096x1_S1x4096 : S4096x1.ShapeCasts S1x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S8192x4096_S4x2048x4096 : S8192x4096.ShapeCasts S4x2048x4096
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x4096.size a
  hwx0_4 : ∀ i : grid0.Coords, EltTy.bits .f32 = 32 ∨ (Rect.block (s := S8192x4096) S512x1024.size (cc0_transform_4 i) (hinb0_4 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S1x1x4096 : Shape := ⟨3, ![1, 1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4x2048x4096, .f32⟩
  | .hbm, ⟨8, _⟩ => ⟨S1x1x4096, .f32⟩
  | .hbm, ⟨9, _⟩ => ⟨S4x2048x4096, .f32⟩
  | .hbm, ⟨10, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The dequantised linear layer as ONE function of its four arguments, in the two arrangements the two programs
  compute it in, and the law that joins them.

  With x : [4, 2048, 4096] reals, w : [4096, 4096] integers (row o the weights of output feature o),
  scale : [4096, 1] and bias : [4096], the layer's entry at (b, s, o) is

      scaledAfter  :  (Σ_k x[b,s,k] · w[o,k]) · scale[o] + bias[o]        (contract first, scale the row's sum)
      scaledBefore :   Σ_k x[b,s,k] · (w[o,k] · scale[o]) + bias[o]       (dequantise the weight, then contract)

  On the extended reals a factor crosses a sum only when nothing is infinite (∞ + (−∞) and 0 · ∞ are where
  distributivity fails), so the law asks that the entries of x on the row and the scale be real numbers; an
  integer weight is one always. The bias is added last on both sides and may be any extended real.
-/
import Idealize.ShloMosaic.PureOps.Ideal
import Idealize.ShloMosaic.Lib.ValueIdx

noncomputable section

namespace Cert.DequantLinear

open Idealize.ShloMosaic Idealize.ShloMosaic.ValueIdx
open scoped BigOperators

abbrev SX : Shape := ⟨3, ![4, 2048, 4096]⟩
abbrev SW : Shape := ⟨2, ![4096, 4096]⟩
abbrev SS : Shape := ⟨2, ![4096, 1]⟩
abbrev SB : Shape := ⟨1, ![4096]⟩

/-- The integer weight w[o, k], read signed, as a real number. -/
def wreal (w : IVec SW 32) (o k : Fin 4096) : ℝ := ((w (ix2 o k)).toInt : ℝ)

/-- Entry (b, s, o), contracting first: (Σ_k x[b,s,k] · w[o,k]) · scale[o] + bias[o]. -/
def afterAt (x : FVec Ideal SX .f32) (w : IVec SW 32) (sc : FVec Ideal SS .f32) (bi : FVec Ideal SB .f32)
    (b : Fin 4) (s : Fin 2048) (o : Fin 4096) : EReal :=
  (∑ k : Fin 4096, x (ix3 b s k) * ((wreal w o k : ℝ) : EReal)) * sc (ix2 o (0 : Fin 1)) + bi (ix1 o)

/-- Entry (b, s, o), scaling each weight first: Σ_k x[b,s,k] · (w[o,k] · scale[o]) + bias[o]. -/
def beforeAt (x : FVec Ideal SX .f32) (w : IVec SW 32) (sc : FVec Ideal SS .f32) (bi : FVec Ideal SB .f32)
    (b : Fin 4) (s : Fin 2048) (o : Fin 4096) : EReal :=
  (∑ k : Fin 4096, x (ix3 b s k) * (((wreal w o k : ℝ) : EReal) * sc (ix2 o (0 : Fin 1)))) + bi (ix1 o)

/-- Contract first, then scale the row's sum and add the bias. -/
def scaledAfter (x : FVec Ideal SX .f32) (w : IVec SW 32) (sc : FVec Ideal SS .f32) (bi : FVec Ideal SB .f32) :
    FVec Ideal SX .f32 :=
  fun i => afterAt x w sc bi (i 0) (i 1) (i 2)

/-- Scale each weight first, then contract and add the bias. -/
def scaledBefore (x : FVec Ideal SX .f32) (w : IVec SW 32) (sc : FVec Ideal SS .f32) (bi : FVec Ideal SB .f32) :
    FVec Ideal SX .f32 :=
  fun i => beforeAt x w sc bi (i 0) (i 1) (i 2)

theorem scaledAfter_apply (x : FVec Ideal SX .f32) (w : IVec SW 32) (sc : FVec Ideal SS .f32) (bi : FVec Ideal SB .f32)
    (b : Fin 4) (s : Fin 2048) (o : Fin 4096) : scaledAfter x w sc bi (ix3 b s o) = afterAt x w sc bi b s o := rfl

theorem scaledBefore_apply (x : FVec Ideal SX .f32) (w : IVec SW 32) (sc : FVec Ideal SS .f32) (bi : FVec Ideal SB .f32)
    (b : Fin 4) (s : Fin 2048) (o : Fin 4096) : scaledBefore x w sc bi (ix3 b s o) = beforeAt x w sc bi b s o := rfl

/-- The coercion of the reals into the extended reals commutes with a finite sum. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- A real factor crosses a finite sum of products of reals: (Σ a_k · w_k) · s = Σ a_k · (w_k · s), read in the
    extended reals. -/
theorem sum_mul_real {ι : Type} [Fintype ι] (a w : ι → ℝ) (s : ℝ) :
    (∑ k, (a k : EReal) * (w k : EReal)) * (s : EReal) = ∑ k, (a k : EReal) * ((w k : EReal) * (s : EReal)) := by
  have hl : (∑ k, (a k : EReal) * (w k : EReal)) = ((∑ k, a k * w k : ℝ) : EReal) := by
    rw [coe_sum]; exact Finset.sum_congr rfl fun k _ => (EReal.coe_mul _ _).symm
  have hr : (∑ k, (a k : EReal) * ((w k : EReal) * (s : EReal))) = ((∑ k, a k * (w k * s) : ℝ) : EReal) := by
    rw [coe_sum]; exact Finset.sum_congr rfl fun k _ => by rw [EReal.coe_mul, EReal.coe_mul]
  rw [hl, hr, ← EReal.coe_mul, Finset.sum_mul]
  exact congrArg _ (Finset.sum_congr rfl fun k _ => by ring)

/-- The two arrangements agree wherever x and the scale are real numbers. -/
theorem scaledAfter_eq_scaledBefore (x : FVec Ideal SX .f32) (w : IVec SW 32) (sc : FVec Ideal SS .f32) (bi : FVec Ideal SB .f32)
    (hx : ∀ i, ∃ r : ℝ, x i = (r : EReal)) (hs : ∀ i, ∃ r : ℝ, sc i = (r : EReal)) :
    scaledAfter x w sc bi = scaledBefore x w sc bi := by
  funext i
  obtain ⟨b, s, o, rfl⟩ : ∃ (b : Fin 4) (s : Fin 2048) (o : Fin 4096), i = ix3 b s o := ⟨i 0, i 1, i 2, eq_ix3 i⟩
  rw [scaledAfter_apply, scaledBefore_apply]
  obtain ⟨r, hr⟩ := hs (ix2 o (0 : Fin 1))
  choose a ha using hx
  unfold afterAt beforeAt
  simp only [ha, hr]
  rw [sum_mul_real]

end Cert.DequantLinear

end
-- ==== Proof.RefSide.lean ====
/-
  The reference, read index by index, is the layer with each weight scaled before the contraction.

  Its operations in order: the integer weight converted to a real; the scale column [4096, 1] broadcast along
  the rows of the weight; their product W[o, k] = w[o, k] · scale[o]; the contraction of x's last axis with W's
  last axis, out[b, s, o] = Σ_k x[b, s, k] · W[o, k]; the bias broadcast over (b, s) and added. At entry (b, s, o)
  that is Σ_k x[b,s,k] · (w[o,k] · scale[o]) + bias[o]: `scaledBefore`.
-/
import proofs.«405075_j36902359007642_3_alg».proof.Proof.Gen.ReferenceIdeal.Read
import proofs.«405075_j36902359007642_3_alg».proof.Proof.Spec

noncomputable section

namespace Cert.ReferenceIdeal.RefValue

open Cert.ReferenceIdeal Cert.ReferenceIdeal.Read Idealize.ShloMosaic Idealize.ShloMosaic.ValueIdx Cert.DequantLinear
open scoped BigOperators

/-- The reference's last stage is `scaledBefore` of the four arguments: each layout operation reads its operand at
    the coordinates named here, the conversion of a weight is its signed value, and what is left is the sum. -/
theorem stage_eq_scaledBefore (x0 : FVec Ideal S4x2048x4096 .f32) (x1 : IVec S4096x4096 32) (x2 : FVec Ideal S4096x1 .f32)
    (x3 : FVec Ideal S4096 .f32) :
    val_main_v6 (F := Ideal) x0 x1 x2 x3 = scaledBefore x0 x1 x2 x3 := by
  funext i
  obtain ⟨b, s, o, rfl⟩ : ∃ (b : Fin 4) (s : Fin 2048) (o : Fin 4096), i = ix3 b s o := ⟨i 0, i 1, i 2, eq_ix3 i⟩
  -- the contraction reads x at (b, s, k) and the scaled weight at (o, k)
  have e1 : ∀ k : Fin 4096, lidx_main_v3 (ix3 b s o) k = ix3 b s k := fun k =>
    funext fun a => by match a with | ⟨0, _⟩ => rfl | ⟨1, _⟩ => rfl | ⟨2, _⟩ => rfl
  have e2 : ∀ k : Fin 4096, ridx_main_v3 (ix3 b s o) k = ix2 o k := fun k =>
    funext fun a => by match a with | ⟨0, _⟩ => rfl | ⟨1, _⟩ => rfl
  -- the scale's broadcast along a row reads the row's one entry
  have e3 : ∀ k : Fin 4096, idx_main_v1 (ix2 o k) = ix2 o (0 : Fin 1) := fun k =>
    funext fun a => by match a with | ⟨0, _⟩ => rfl | ⟨1, _⟩ => rfl
  -- the bias's two broadcasts read it at the last coordinate
  have e4 : idx_main_v4 (idx_main_v5 (ix3 b s o)) = ix1 o :=
    funext fun a => by match a with | ⟨0, _⟩ => rfl
  rw [scaledBefore_apply, val_main_v6_apply, val_main_v3_apply, val_main_v5_apply, val_main_v4_apply, e4]
  unfold beforeAt wreal
  refine congrArg (· + x3 (ix1 o)) (Finset.sum_congr rfl fun k _ => ?_)
  rw [e1, e2, val_main_v2_apply, val_main_v0_apply, val_main_v1_apply, e3]
  rfl

end Cert.ReferenceIdeal.RefValue

end
-- ==== Proof.KernelPoint.lean ====
/-
  What the kernel body stores at one grid point, entry by entry.

  At a point the body holds a [512, 4096] block X of x's rows, a [1024, 4096] block B of the weight's rows, and the
  matching [1, 1024] pieces of the scale and the bias. It contracts the LAST axis of both blocks into a zero
  accumulator, multiplies by the scale row laid down the 512 rows, and adds the bias row laid the same way. So its
  entry (p, q) is

      (Σ_k X[p, k] · B[q, k]) · scale[0, q] + bias[0, q].
-/
import proofs.«405075_j36902359007642_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Point

open Cert.KernelIdeal Cert.KernelIdeal.Gen Idealize.ShloMosaic Idealize.ShloMosaic.ValueIdx
open scoped BigOperators

/-! ## The contraction's operand indices, axis by axis

The product contracts axis 1 of both operands; the left operand's axis 0 is the result's axis 0 and the right
operand's axis 0 is the result's axis 1. -/

theorem lhs_axis0 (i : S512x1024.Idx) (q : dot_S512x4096_S1024x4096_S512x1024_1_1_0_0_n_n.contr.Idx) :
    (dot_S512x4096_S1024x4096_S512x1024_1_1_0_0_n_n.lhsIdx i q 0).val = (i 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
theorem lhs_axis1 (i : S512x1024.Idx) (q : dot_S512x4096_S1024x4096_S512x1024_1_1_0_0_n_n.contr.Idx) :
    (dot_S512x4096_S1024x4096_S512x1024_1_1_0_0_n_n.lhsIdx i q 1).val = (q ⟨0, by decide⟩).val :=
  dot_S512x4096_S1024x4096_S512x1024_1_1_0_0_n_n.lhsIdx_val_of_single rfl i q
theorem rhs_axis0 (i : S512x1024.Idx) (q : dot_S512x4096_S1024x4096_S512x1024_1_1_0_0_n_n.contr.Idx) :
    (dot_S512x4096_S1024x4096_S512x1024_1_1_0_0_n_n.rhsIdx i q 0).val = (i 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
theorem rhs_axis1 (i : S512x1024.Idx) (q : dot_S512x4096_S1024x4096_S512x1024_1_1_0_0_n_n.contr.Idx) :
    (dot_S512x4096_S1024x4096_S512x1024_1_1_0_0_n_n.rhsIdx i q 1).val = (q ⟨0, by decide⟩).val :=
  dot_S512x4096_S1024x4096_S512x1024_1_1_0_0_n_n.rhsIdx_val_of_single rfl i q

/-- The product into the zero accumulator, at (p, q): the sum over the shared last axis of X[p, k] · B[q, k]. -/
theorem matmul_rows_apply (X : FVec Ideal S512x4096 .bf16) (B : FVec Ideal S1024x4096 .bf16) (p : Fin 512) (q : Fin 1024) :
    matmul (F := Ideal) dot_S512x4096_S1024x4096_S512x1024_1_1_0_0_n_n none X B (constant (F := Ideal) S512x1024 .f32 0x00000000#32) (ix2 p q)
      = ∑ k : Fin 4096, X (ix2 p k) * B (ix2 q k) := by
  show FloatOps.matmul (F := Ideal) dot_S512x4096_S1024x4096_S512x1024_1_1_0_0_n_n none X B (constant (F := Ideal) S512x1024 .f32 0x00000000#32) (ix2 p q) = _
  rw [Ideal.matmul_constant_zero_apply, ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx (ix2 p q) ((contrEquiv1 dot_S512x4096_S1024x4096_S512x1024_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S512x4096_S1024x4096_S512x1024_1_1_0_0_n_n.rhsIdx (ix2 p q) ((contrEquiv1 dot_S512x4096_S1024x4096_S512x1024_1_1_0_0_n_n 4096 rfl rfl).symm k) = ix2 q k := funext fun a => Fin.ext (by
    match a with
    | ⟨0, _⟩ => exact rhs_axis0 _ _
    | ⟨1, _⟩ => exact (rhs_axis1 _ _).trans hk)
  rw [el, er]

/-- A [1, 1024] row laid down 512 rows reads, at (p, q), the row's entry q. -/
theorem row_down_apply (v : FVec Ideal S1x1024 .f32) (p : Fin 512) (q : Fin 1024) :
    broadcastTo S512x1024 v broadcasts_S1x1024_S512x1024 (ix2 p q) = v (ix2 (0 : Fin 1) q) :=
  broadcastTo_apply v broadcasts_S1x1024_S512x1024 (ix2 p q) (ix2 (0 : Fin 1) q) (fun a => by
    match a with
    | ⟨0, _⟩ => rfl
    | ⟨1, _⟩ => show q.val = if (1024 : Nat) = 1 then 0 else q.val; rw [if_neg (by decide)])

/-- The body's one stored value at entry (p, q) of its [512, 1024] block. -/
theorem pay_apply (X : Vec Ideal S512x4096 .bf16) (B : Vec Ideal S1024x4096 .bf16) (sc bi : Vec Ideal S1x1024 .f32)
    (p : Fin 512) (q : Fin 1024) :
    k0_pay1 (F := Ideal) X B sc bi (ix2 p q)
      = (∑ k : Fin 4096, X (ix2 p k) * B (ix2 q k)) * sc (ix2 (0 : Fin 1) q) + bi (ix2 (0 : Fin 1) q) := by
  unfold k0_pay1
  show (matmul (F := Ideal) dot_S512x4096_S1024x4096_S512x1024_1_1_0_0_n_n none (shapeCast S512x4096 X shapeCasts_S512x4096_S512x4096) (shapeCast S1024x4096 B shapeCasts_S1024x4096_S1024x4096)
        (constant (F := Ideal) S512x1024 .f32 0x00000000#32) (ix2 p q))
      * (broadcastTo S512x1024 (shapeCast S1x1024 sc shapeCasts_S1x1024_S1x1024) broadcasts_S1x1024_S512x1024 (ix2 p q))
      + broadcastTo S512x1024 (shapeCast S1x1024 bi shapeCasts_S1x1024_S1x1024) broadcasts_S1x1024_S512x1024 (ix2 p q) = _
  simp only [shapeCast_self]
  rw [matmul_rows_apply, row_down_apply, row_down_apply]

end Cert.KernelIdeal.Point

end
-- ==== Proof.KernelEntry.lean ====
/-
  The four arrays the region finds, read at an index from the program's arguments.

  Before the region the host lines flatten x's two leading axes, [4, 2048, 4096] to [8192, 4096] (row r = b · 2048 + s;
  the change of float format that follows is the identity on the reals), convert the integer weight to a real
  entry by entry, and lay the scale column [4096, 1] and the bias [4096] out as rows [1, 4096].
-/
import proofs.«405075_j36902359007642_3_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The program's arguments as launched, at their literal types. -/
abbrev xarg (c : Dev nD) : FVec Ideal S4x2048x4096 .f32 := m ((c : Thread nD τ).loc main_arg0)
abbrev warg (c : Dev nD) : IVec S4096x4096 32 := m ((c : Thread nD τ).loc main_arg1)
abbrev sarg (c : Dev nD) : FVec Ideal S4096x1 .f32 := m ((c : Thread nD τ).loc main_arg2)
abbrev barg (c : Dev nD) : FVec Ideal S4096 .f32 := m ((c : Thread nD τ).loc main_arg3)

/-- The arrays the region's four input windows read, at their literal types. -/
abbrev xarr (c : Dev nD) : FVec Ideal S8192x4096 .bf16 := V m c main_v1
abbrev warr (c : Dev nD) : FVec Ideal S4096x4096 .bf16 := V m c main_v2
abbrev sarr (c : Dev nD) : FVec Ideal S1x4096 .f32 := V m c main_v3
abbrev barr (c : Dev nD) : FVec Ideal S1x4096 .f32 := V m c main_v4

/-- Row r = b · 2048 + s of the flattened x is x's row (b, s). -/
theorem xarr_apply (c : Dev nD) (b : Fin 4) (s : Fin 2048) (k : Fin 4096) (r : Fin 8192) (hr : r.val = b.val * 2048 + s.val) :
    xarr m c (ix2 r k) = xarg m c (ix3 b s k) := by
  have e : xarr m c = truncf (F := Ideal) .bf16 (shapeCast S8192x4096 (xarg m c) shapeCasts_S4x2048x4096_S8192x4096) bitsLt_bf16_f32 := by
    show StableHlo.after hostOps0 (fun b => m (c, b)) (Proc.devRef .tc main_v1) = _
    after_results
    rfl
  rw [e, truncf_apply]
  exact shapeCast_apply _ _ (ix2 r k) (ix3 b s k) (by
    rw [Shape.rowMajor_val_three, Shape.rowMajor_val_two]
    show (b.val * 2048 + s.val) * 4096 + k.val = r.val * 4096 + k.val
    rw [hr])

/-- The converted weight at (o, k) is the integer w[o, k] read signed. -/
theorem warr_apply (c : Dev nD) (o k : Fin 4096) :
    warr m c (ix2 o k) = (((warg m c (ix2 o k)).toInt : ℝ) : EReal) := by
  have e : warr m c = sitofp (F := Ideal) .bf16 (warg m c) := by
    show StableHlo.after hostOps0 (fun b => m (c, b)) (Proc.devRef .tc main_v2) = _
    after_results
  rw [e, sitofp_apply]
  rfl

/-- The scale laid out as a row: its entry (0, o) is the column's entry (o, 0). -/
theorem sarr_apply (c : Dev nD) (o : Fin 4096) :
    sarr m c (ix2 (0 : Fin 1) o) = sarg m c (ix2 o (0 : Fin 1)) := by
  have e : sarr m c = shapeCast S1x4096 (sarg m c) shapeCasts_S4096x1_S1x4096 := by
    show StableHlo.after hostOps0 (fun b => m (c, b)) (Proc.devRef .tc main_v3) = _
    after_results
    rfl
  rw [e]
  exact shapeCast_apply _ _ (ix2 (0 : Fin 1) o) (ix2 o (0 : Fin 1)) (by
    rw [Shape.rowMajor_val_two, Shape.rowMajor_val_two]
    show o.val * 1 + 0 = 0 * 4096 + o.val
    omega)

/-- The bias laid out as a row: its entry (0, o) is bias[o]. -/
theorem barr_apply (c : Dev nD) (o : Fin 4096) :
    barr m c (ix2 (0 : Fin 1) o) = barg m c (ix1 o) := by
  have e : barr m c = shapeCast S1x4096 (barg m c) shapeCasts_S4096_S1x4096 := by
    show StableHlo.after hostOps0 (fun b => m (c, b)) (Proc.devRef .tc main_v4) = _
    after_results
    rfl
  rw [e]
  exact shapeCast_apply _ _ (ix2 (0 : Fin 1) o) (ix1 o) (by
    rw [Shape.rowMajor_val_one, Shape.rowMajor_val_two]
    show o.val = 0 * 4096 + o.val
    omega)

end Cert.KernelIdeal.Entry

end
-- ==== Proof.KernelArray.lean ====
/-
  From the blocks the grid points write back to the whole result array of the region.

  The grid is 4 × 16: point (j, i) reads rows [512 i, 512 i + 512) of the flattened x, rows [1024 j, 1024 j + 1024)
  of the weight, columns [1024 j, 1024 j + 1024) of the scale and bias rows, and writes block (i, j) of the
  [8192, 4096] result. The 64 result blocks tile the array, and each is the restriction of ONE function of the
  four arrays the region finds:

      out[r, o] = (Σ_k A[r, k] · W[o, k]) · scale[0, o] + bias[0, o].
-/
import proofs.«405075_j36902359007642_3_alg».proof.Proof.KernelPoint
import proofs.«405075_j36902359007642_3_alg».proof.Proof.KernelEntry

set_option maxRecDepth 16384

noncomputable section

namespace Cert.KernelIdeal.Whole

open Cert.KernelIdeal Cert.KernelIdeal.Gen Cert.KernelIdeal.Entry Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ)

/-! ## The result array as one function -/

/-- Entry (r, o) of the region's result from the four arrays it finds. -/
def rowsOutAt (A : FVec Ideal S8192x4096 .bf16) (Wt : FVec Ideal S4096x4096 .bf16) (sc bi : FVec Ideal S1x4096 .f32)
    (r : Fin 8192) (o : Fin 4096) : EReal :=
  (∑ k : Fin 4096, A (ix2 r k) * Wt (ix2 o k)) * sc (ix2 (0 : Fin 1) o) + bi (ix2 (0 : Fin 1) o)

/-- The region's result array. -/
def rowsOut (A : FVec Ideal S8192x4096 .bf16) (Wt : FVec Ideal S4096x4096 .bf16) (sc bi : FVec Ideal S1x4096 .f32) :
    FVec Ideal S8192x4096 .f32 :=
  fun i => rowsOutAt A Wt sc bi (i 0) (i 1)

theorem rowsOut_apply (A : FVec Ideal S8192x4096 .bf16) (Wt : FVec Ideal S4096x4096 .bf16) (sc bi : FVec Ideal S1x4096 .f32)
    (r : Fin 8192) (o : Fin 4096) : rowsOut A Wt sc bi (ix2 r o) = rowsOutAt A Wt sc bi r o := rfl

/-! ## Where each window's block sits -/

theorem offset_zero : (![0, 0] : Fin 2 → Nat) = fun _ => 0 := funext fun a => by fin_cases a <;> rfl

/-- The printed index maps over the 64 points: x's block follows the result's row block, the weight's, the scale's
    and the bias's follow the result's column block, and the result's block indices stay below 16 and 4. -/
theorem block_indices : ∀ t : Fin cfg0.N,
      win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) ≤ 15 ∧ win0_4.index t (1 : Fin 2) ≤ 3 :=
  (by decide +kernel : ∀ t : Fin grid0.N, _)

/-- Every one of the 16 × 4 result blocks is some point's. -/
theorem block_onto : ∀ (q0 : Fin 16) (q1 : Fin 4), ∃ t : Fin cfg0.N, win0_4.index t = ![q0.val, q1.val] :=
  (by decide +kernel : ∀ (q0 : Fin 16) (q1 : Fin 4), ∃ t : Fin grid0.N, win0_4.index t = ![q0.val, q1.val])

/-- The input blocks at a point, at their literal types. -/
abbrev xblk (c : Dev nD) (t : Fin cfg0.N) : Vec Ideal S512x4096 .bf16 := iblk m c 0 t
abbrev wblk (c : Dev nD) (t : Fin cfg0.N) : Vec Ideal S1024x4096 .bf16 := iblk m c 1 t
abbrev sblk (c : Dev nD) (t : Fin cfg0.N) : Vec Ideal S1x1024 .f32 := iblk m c 2 t
abbrev bblk (c : Dev nD) (t : Fin cfg0.N) : Vec Ideal S1x1024 .f32 := iblk m c 3 t

/-- x's block at a point is rows 512 · (the result's row block) + p of the flattened x. -/
theorem xblk_apply (c : Dev nD) (t : Fin cfg0.N) (p : Fin 512) (k : Fin 4096) (r : Fin 8192)
    (hr : r.val = win0_4.index t (0 : Fin 2) * 512 + p.val) : xblk m c t (ix2 p k) = xarr m c (ix2 r k) := by
  obtain ⟨e0, e1, -⟩ := block_indices t
  show V m c main_v1 (((cfg0.win 0).blk t).view.emb (ix2 p k)) = V m c main_v1 (ix2 r k)
  refine congrArg _ (funext fun a => Fin.ext ?_)
  match a with
  | ⟨0, _⟩ => show win0_0.index t (0 : Fin 2) * 512 + 1 * p.val = r.val; omega
  | ⟨1, _⟩ => show win0_0.index t (1 : Fin 2) * 4096 + 1 * k.val = k.val; omega

/-- The weight's block at a point is rows 1024 · (the result's column block) + q of the weight. -/
theorem wblk_apply (c : Dev nD) (t : Fin cfg0.N) (q : Fin 1024) (k : Fin 4096) (o : Fin 4096)
    (ho : o.val = win0_4.index t (1 : Fin 2) * 1024 + q.val) : wblk m c t (ix2 q k) = warr m c (ix2 o k) := by
  obtain ⟨-, -, e0, e1, -⟩ := block_indices t
  show V m c main_v2 (((cfg0.win 1).blk t).view.emb (ix2 q k)) = V m c main_v2 (ix2 o k)
  refine congrArg _ (funext fun a => Fin.ext ?_)
  match a with
  | ⟨0, _⟩ => show win0_1.index t (0 : Fin 2) * 1024 + 1 * q.val = o.val; omega
  | ⟨1, _⟩ => show win0_1.index t (1 : Fin 2) * 4096 + 1 * k.val = k.val; omega

/-- The scale's block at a point is columns 1024 · (the result's column block) + q of the scale row. -/
theorem sblk_apply (c : Dev nD) (t : Fin cfg0.N) (q : Fin 1024) (o : Fin 4096)
    (ho : o.val = win0_4.index t (1 : Fin 2) * 1024 + q.val) :
    sblk m c t (ix2 (0 : Fin 1) q) = sarr m c (ix2 (0 : Fin 1) o) := by
  obtain ⟨-, -, -, -, e0, e1, -⟩ := block_indices t
  show V m c main_v3 (((cfg0.win 2).blk t).view.emb (ix2 (0 : Fin 1) q)) = V m c main_v3 (ix2 (0 : Fin 1) o)
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * q.val = o.val; omega

/-- The bias's block at a point, likewise. -/
theorem bblk_apply (c : Dev nD) (t : Fin cfg0.N) (q : Fin 1024) (o : Fin 4096)
    (ho : o.val = win0_4.index t (1 : Fin 2) * 1024 + q.val) :
    bblk m c t (ix2 (0 : Fin 1) q) = barr m c (ix2 (0 : Fin 1) o) := by
  obtain ⟨-, -, -, -, -, -, e0, e1, -⟩ := block_indices t
  show V m c main_v4 (((cfg0.win 3).blk t).view.emb (ix2 (0 : Fin 1) q)) = V m c main_v4 (ix2 (0 : Fin 1) o)
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * q.val = o.val; omega

/-! ## What a point writes back -/

/-- The body's stored entry (p, q) at point t is the result function at the array entry the block puts there. -/
theorem point_entry (c : Dev nD) (t : Fin cfg0.N) (j : S512x1024.Idx) (i : S8192x4096.Idx)
    (h0 : (i 0).val = win0_4.index t (0 : Fin 2) * 512 + (j 0).val)
    (h1 : (i 1).val = win0_4.index t (1 : Fin 2) * 1024 + (j 1).val) :
    k0_pay1 (F := Ideal) (xblk m c t) (wblk m c t) (sblk m c t) (bblk m c t) j
      = rowsOut (xarr m c) (warr m c) (sarr m c) (barr m c) i := by
  obtain ⟨p, q, rfl⟩ : ∃ (p : Fin 512) (q : Fin 1024), j = ix2 p q := ⟨j 0, j 1, eq_ix2 j⟩
  obtain ⟨r, o, rfl⟩ : ∃ (r : Fin 8192) (o : Fin 4096), i = ix2 r o := ⟨i 0, i 1, eq_ix2 i⟩
  have hr : r.val = win0_4.index t (0 : Fin 2) * 512 + p.val := h0
  have ho : o.val = win0_4.index t (1 : Fin 2) * 1024 + q.val := h1
  rw [Point.pay_apply, rowsOut_apply]
  unfold rowsOutAt
  rw [sblk_apply m c t q o ho, bblk_apply m c t q o ho]
  refine congrArg (fun z => z * sarr m c (ix2 (0 : Fin 1) o) + barr m c (ix2 (0 : Fin 1) o)) (Finset.sum_congr rfl fun k _ => ?_)
  rw [xblk_apply m c t p k r hr, wblk_apply m c t q k o ho]

/-- What point t writes back is block t of the result function of the arrays the region finds. -/
theorem flushed_eq (c : Dev nD) (t : Fin cfg0.N) :
    (dats m 0 c).flushed 4 t
      = ((cfg0.win 4).blk t).view.read (Elt Ideal) (rowsOut (xarr m c) (warr m c) (sarr m c) (barr m c)) := by
  show (cfg0.win 4).cut (grid0.coords t) ((dats m 0 c).after 4 t) = _
  rw [after0_4]
  unfold out0_4
  rw [View.canon_unit_zero offset_zero]
  simp only [View.ld_unit_zero (S := S512x4096) offset_zero, View.ld_unit_zero (S := S1024x4096) offset_zero,
    View.ld_unit_zero (S := S1x1024) offset_zero]
  funext j
  exact point_entry m c t j (((cfg0.win 4).blk t).view.emb j)
    (by show win0_4.index t (0 : Fin 2) * 512 + 1 * (j 0).val = win0_4.index t (0 : Fin 2) * 512 + (j 0).val; omega)
    (by show win0_4.index t (1 : Fin 2) * 1024 + 1 * (j 1).val = win0_4.index t (1 : Fin 2) * 1024 + (j 1).val; omega)

/-! ## The blocks tile the array -/

/-- An index of the result array is in point t's block iff each coordinate is in the block's range on its axis. -/
theorem mem_block (t : Fin cfg0.N) (i : S8192x4096.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v5).slice (win0_4.rect t)).set ↔ _
  rw [View.set_slice_whole, Rect.mem_set_unit]
  exact Iff.rfl

/-- Every entry (r, o) is in the block of the point whose result block is (r / 512, o / 1024). -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := block_onto ⟨(i 0).val / 512, by omega⟩ ⟨(i 1).val / 1024, by omega⟩
  have q0 : win0_4.index t (0 : Fin 2) = (i 0).val / 512 := congrFun ht 0
  have q1 : win0_4.index t (1 : Fin 2) = (i 1).val / 1024 := congrFun ht 1
  refine ⟨t, flush0_4 t, ?_⟩
  rw [mem_block]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The result array after the region is the result function of the arrays the region found. -/
theorem region_result (c : Dev nD) :
    (dats m 0 c).arrAt 4 cfg0.N = rowsOut (xarr m c) (warr m c) (sarr m c) (barr m c) :=
  (dats m 0 c).arrAt_eq_of_cover 4 _ (fun t _ => flushed_eq m c t) covered

end Cert.KernelIdeal.Whole

end
-- ==== Proof.KernelRun.lean ====
/-
  The kernel program's run, with its result named.

  After the region one host line reshapes the [8192, 4096] result back to [4, 2048, 4096]: entry (b, s, o) is the
  region's entry (b · 2048 + s, o). Reading the four arrays the region found back to the program's arguments, the
  result is the layer with the scale applied after the contraction: `scaledAfter` of the arguments.
-/
import proofs.«405075_j36902359007642_3_alg».proof.Proof.KernelArray
import proofs.«405075_j36902359007642_3_alg».proof.Proof.Spec

set_option maxRecDepth 16384

noncomputable section

namespace Cert.KernelIdeal.Result

open Cert.KernelIdeal Cert.KernelIdeal.Gen Cert.KernelIdeal.Entry Cert.KernelIdeal.Whole Cert.DequantLinear
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (ρ : Dev nD → PrngReg)

/-- The program's result buffer after the host line that follows the region. -/
theorem result_eq (c : Dev nD) :
    Pipeline.afterTail₀ cfgs (dats m) 0 (V0 m) [hostOps1] c main_v6
      = scaledAfter (xarg m c) (warg m c) (sarg m c) (barg m c) := by
  unfold Pipeline.afterTail₀
  show StableHlo.after hostOps1 _ (Proc.devRef .tc main_v6) = _
  after_results
  funext i
  obtain ⟨b, s, o, rfl⟩ : ∃ (b : Fin 4) (s : Fin 2048) (o : Fin 4096), i = ix3 b s o := ⟨i 0, i 1, i 2, eq_ix3 i⟩
  have hr : b.val * 2048 + s.val < 8192 := by have := b.isLt; have := s.isLt; omega
  show shapeCast S4x2048x4096 (Pipeline.withArrays spec0 c (V0 m c) (fun w => (dats m 0 c).arrAt w cfg0.N) (Proc.devRef .tc main_v5))
      shapeCasts_S8192x4096_S4x2048x4096 (ix3 b s o) = _
  rw [shapeCast_apply _ _ (ix3 b s o) (ix2 (⟨b.val * 2048 + s.val, hr⟩ : Fin 8192) o) (by
    rw [Shape.rowMajor_val_two, Shape.rowMajor_val_three]
    show (b.val * 2048 + s.val) * 4096 + o.val = (b.val * 2048 + s.val) * 4096 + o.val
    rfl)]
  rw [show Pipeline.withArrays spec0 c (V0 m c) (fun w => (dats m 0 c).arrAt w cfg0.N) (Proc.devRef .tc main_v5)
      = (dats m 0 c).arrAt 4 cfg0.N from Pipeline.withArrays_arr spec0 launch0.win.arr_inj c _ _ 4]
  rw [region_result, rowsOut_apply, scaledAfter_apply]
  unfold rowsOutAt afterAt wreal
  rw [sarr_apply, barr_apply]
  refine congrArg (fun z => z * sarg m c (ix2 o (0 : Fin 1)) + barg m c (ix1 o)) (Finset.sum_congr rfl fun k _ => ?_)
  rw [xarr_apply m c b s k ⟨_, hr⟩ rfl, warr_apply]

/-- Every weakly fair execution of the kernel program ends with its result at `scaledAfter` of the arguments and the
    arguments unchanged. -/
theorem run : θ_run defs (onTc (τ := τ) (main (F := Ideal))) ⟨m, fun _ => 0, ρ⟩ (fun r => ∀ c : Dev nD,
      r.2.mem ((c.tc : Thread nD τ).loc main_v6) = scaledAfter (xarg m c) (warg m c) (sarg m c) (barg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.Finite.lean ====
/-
  The precondition read back: every entry of x and of the scale is a real number.

  The precondition is the conjunction of three `all(|·| < +∞)`, one per float argument. A conjunction of bits that is
  1 has both bits 1; an `all` that is 1 met a 1 at every entry; and an extended real whose absolute value
  max(v, −v) lies strictly below +∞ is neither infinity, so it is a real number.
-/
import proofs.«405075_j36902359007642_3_alg».proof.Pre_finite_inputs
import proofs.«405075_j36902359007642_3_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Cert.Pre_finite_inputs.Gen Idealize.ShloMosaic Idealize.ShloMosaic.ValueIdx

/-- The bit pattern 0x7F800000 is +∞. -/
theorem inf_bits : Ideal.ofBits .f32 0x7F800000#32 = (⊤ : EReal) := by simp [Ideal.ofBits, Ideal.ieee]

/-- An extended real whose absolute value compares below +∞ is a real number. -/
theorem real_of_abs_lt_inf (v : EReal)
    (h : Ideal.cmp .olt (max v (-v)) (Ideal.ofBits .f32 0x7F800000#32) = 1#1) : ∃ r : ℝ, v = (r : EReal) := by
  rw [inf_bits] at h
  have hlt : max v (-v) < ⊤ := by
    by_contra hn
    have h0 : Ideal.cmp .olt (max v (-v)) ⊤ = 0#1 := by unfold Ideal.cmp; simp [hn]
    rw [h0] at h
    exact absurd h (by decide)
  induction v using EReal.rec with
  | bot => simp at hlt
  | coe r => exact ⟨r, rfl⟩
  | top => simp at hlt

/-- A scalar result has one index. -/
instance : Subsingleton S_.Idx := ⟨fun a b => funext fun d => d.elim0⟩

/-- Under the precondition, x and the scale hold real numbers at every index. -/
theorem reals_of_pre (x0 : FVec Ideal S4x2048x4096 .f32) (x1 : IVec S4096x4096 32) (x2 : FVec Ideal S4096x1 .f32)
    (x3 : FVec Ideal S4096 .f32) (h : fn (F := Ideal) x0 x1 x2 x3 = fun _ => 1#1) :
    (∀ i, ∃ r : ℝ, x0 i = (r : EReal)) ∧ (∀ i, ∃ r : ℝ, x2 i = (r : EReal)) := by
  have h0 := congrFun h ix0
  dsimp only [fn] at h0
  obtain ⟨h01, -⟩ := IntOp.andi_eq_one.1 h0
  obtain ⟨hx, hs⟩ := IntOp.andi_eq_one.1 h01
  exact ⟨fun i => real_of_abs_lt_inf _ (Host.reduce_andi_all _ _ _ _ ix0 hx i),
    fun i => real_of_abs_lt_inf _ (Host.reduce_andi_all _ _ _ _ ix0 hs i)⟩

end Cert.Pre_finite_inputs.Finite

end
-- ==== Proof.lean ====
/-
  A quantised linear layer: out[b, s, o] = Σ_k x[b, s, k] · (w[o, k] · scale[o]) + bias[o], with w an integer weight
  matrix [4096, 4096], scale one real per output feature and x : [4, 2048, 4096].

  The reference dequantises the weight first (w · scale, entry by entry) and then contracts. The kernel flattens x
  to [8192, 4096], contracts the raw integer weight on a 4 × 16 grid of [512, 1024] result blocks, and only then
  multiplies each column by its scale and adds the bias; one host line reshapes the result back. Changes of float
  format are the identity on the extended reals and an integer converts to the same real at any format, so the two
  programs differ by one law: a real factor crossing a finite sum, (Σ_k a_k · w_k) · s = Σ_k a_k · (w_k · s). That law
  needs the a_k and s to be real numbers — the precondition says so of x and of the scale — and an integer weight
  is one always. The bias is added last on both sides and plays no part.

  Modules: Spec (both arrangements as functions of the arguments, and the law); RefSide (the reference is the
  scale-first arrangement); KernelPoint (one grid point's stored entry); KernelEntry (the arrays the region finds,
  read back to the arguments); KernelArray (the 64 blocks tile the result array); KernelRun (the program's result is
  the contract-first arrangement); Finite (the precondition gives real entries).
-/
import proofs.«405075_j36902359007642_3_alg».proof.Defs
import proofs.«405075_j36902359007642_3_alg».proof.Proof.Gen.Kernel
import proofs.«405075_j36902359007642_3_alg».proof.Proof.Gen.Kernel.Skeleton
import proofs.«405075_j36902359007642_3_alg».proof.Proof.Gen.Kernel.Launch
import proofs.«405075_j36902359007642_3_alg».proof.Proof.Gen.Kernel.Points
import proofs.«405075_j36902359007642_3_alg».proof.Proof.Gen.Kernel.Frame
import proofs.«405075_j36902359007642_3_alg».proof.Proof.Gen.KernelIdeal
import proofs.«405075_j36902359007642_3_alg».proof.Proof.Gen.KernelIdeal.Skeleton
import proofs.«405075_j36902359007642_3_alg».proof.Proof.Gen.KernelIdeal.Launch
import proofs.«405075_j36902359007642_3_alg».proof.Proof.Gen.KernelIdeal.Points
import proofs.«405075_j36902359007642_3_alg».proof.Proof.Gen.KernelIdeal.Frame
import proofs.«405075_j36902359007642_3_alg».proof.Proof.Gen.ReferenceIdeal
import proofs.«405075_j36902359007642_3_alg».proof.Proof.Gen.ReferenceIdeal.Run
import proofs.«405075_j36902359007642_3_alg».proof.Proof.Gen.ReferenceIdeal.Read
import proofs.«405075_j36902359007642_3_alg».proof.Proof.Gen.Pre_finite_inputs
import proofs.«405075_j36902359007642_3_alg».proof.Proof.Spec
import proofs.«405075_j36902359007642_3_alg».proof.Proof.RefSide
import proofs.«405075_j36902359007642_3_alg».proof.Proof.KernelRun
import proofs.«405075_j36902359007642_3_alg».proof.Proof.Finite
import Idealize.ShloMosaic.Adequacy
import Idealize.ShloMosaic.Init

noncomputable section

namespace Cert.Proof

open Idealize.ShloMosaic Idealize.ShloMosaic.TcCoe Idealize.SL.Sem Cert.DequantLinear

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel ends at the contract-first arrangement of its arguments, the reference at the scale-first arrangement
    of arguments that agree with them; under the precondition x and the scale are real, and the two arrangements
    are one function. -/
theorem algebraic : Cert.algebraic_KernelIdeal_ReferenceIdeal := by
  intro m ρ m' ρ' hpre hagree
  refine ⟨fun c => scaledAfter (Cert.KernelIdeal.Entry.xarg m c) (Cert.KernelIdeal.Entry.warg m c)
      (Cert.KernelIdeal.Entry.sarg m c) (Cert.KernelIdeal.Entry.barg m c), Cert.KernelIdeal.Result.run m ρ, ?_⟩
  refine (θ_run Cert.ReferenceIdeal.defs _ _).mono (fun _ h c => ⟨?_, (h c).2⟩)
    (Cert.ReferenceIdeal.Value.run (F := Ideal) m' ρ')
  obtain ⟨hx, hs⟩ := Cert.Pre_finite_inputs.Finite.reals_of_pre _ _ _ _ (hpre c)
  rw [(h c).1, Cert.ReferenceIdeal.Read.val_main_v6_eq, Cert.ReferenceIdeal.RefValue.stage_eq_scaledBefore,
    (hagree c).1, (hagree c).2.1, (hagree c).2.2.1, (hagree c).2.2.2]
  exact (scaledAfter_eq_scaledBefore _ _ _ _ hx hs).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
